-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S1x512x1024 : Shape := ⟨3, ![1, 512, 1024]⟩
abbrev S1024 : Shape := ⟨1, ![1024]⟩
abbrev S1024x1024 : Shape := ⟨2, ![1024, 1024]⟩
abbrev S1048576 : Shape := ⟨1, ![1048576]⟩
abbrev S1x1024 : Shape := ⟨2, ![1, 1024]⟩
abbrev S1x1048576 : Shape := ⟨2, ![1, 1048576]⟩
abbrev S2x1048576 : Shape := ⟨2, ![2, 1048576]⟩
abbrev S1x2x1x1048576 : Shape := ⟨4, ![1, 2, 1, 1048576]⟩
abbrev S1x2x32x1048576 : Shape := ⟨4, ![1, 2, 32, 1048576]⟩
abbrev S2x33554432 : Shape := ⟨2, ![2, 33554432]⟩
abbrev S33554432 : Shape := ⟨1, ![33554432]⟩

abbrev nBuf : Space → Nat
  | .hbm => 16
  | .vmem => 4
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1024, .i32⟩
  | .hbm, ⟨3, _⟩ => ⟨S1024x1024, .i32⟩
  | .hbm, ⟨4, _⟩ => ⟨S1048576, .i32⟩
  | .hbm, ⟨5, _⟩ => ⟨S1024, .i32⟩
  | .hbm, ⟨6, _⟩ => ⟨S1x1024, .i32⟩
  | .hbm, ⟨7, _⟩ => ⟨S1024x1024, .i32⟩
  | .hbm, ⟨8, _⟩ => ⟨S1048576, .i32⟩
  | .hbm, ⟨9, _⟩ => ⟨S1x1048576, .i32⟩
  | .hbm, ⟨10, _⟩ => ⟨S1x1048576, .i32⟩
  | .hbm, ⟨11, _⟩ => ⟨S2x1048576, .i32⟩
  | .hbm, ⟨12, _⟩ => ⟨S1x2x1x1048576, .i32⟩
  | .hbm, ⟨13, _⟩ => ⟨S1x2x32x1048576, .i32⟩
  | .hbm, ⟨14, _⟩ => ⟨S2x33554432, .i32⟩
  | .hbm, ⟨15, _⟩ => ⟨S33554432, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  shapeCasts_S2x1048576_S1x2x1x1048576 : S2x1048576.ShapeCasts S1x2x1x1048576
  bcast_S1x2x1x1048576_S1x2x32x1048576_0_1_2_3 : S1x2x1x1048576.BroadcastsInDim S1x2x32x1048576 (![0, 1, 2, 3] : Fin 4 → Fin S1x2x32x1048576.rank)
  shapeCasts_S1x2x32x1048576_S2x33554432 : S1x2x32x1048576.ShapeCasts S2x33554432
  shapeCasts_S32x1024x1024_S33554432 : S32x1024x1024.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x1024x1024.size a
  hwx0_0 : ∀ i : grid0.Coords, EltTy.bits .f32 = 32 ∨ (Rect.block (s := S32x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x1024x1024.size a
  hwx0_1 : ∀ i : grid0.Coords, EltTy.bits .f32 = 32 ∨ (Rect.block (s := S32x1024x1024) S1x512x1024.size (cc0_transform_1 i) (hinb0_1 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S_ : Shape := ⟨0, ![]⟩
abbrev S1024 : Shape := ⟨1, ![1024]⟩
abbrev S1024x1024 : Shape := ⟨2, ![1024, 1024]⟩
abbrev S1048576 : Shape := ⟨1, ![1048576]⟩
abbrev S1x1024 : Shape := ⟨2, ![1, 1024]⟩
abbrev S1x1048576 : Shape := ⟨2, ![1, 1048576]⟩
abbrev S2x1048576 : Shape := ⟨2, ![2, 1048576]⟩
abbrev S1x2x1x1048576 : Shape := ⟨4, ![1, 2, 1, 1048576]⟩
abbrev S1x2x32x1048576 : Shape := ⟨4, ![1, 2, 32, 1048576]⟩
abbrev S2x33554432 : Shape := ⟨2, ![2, 33554432]⟩
abbrev S33554432 : Shape := ⟨1, ![33554432]⟩

abbrev nBuf : Space → Nat
  | .hbm => 23
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S_, .f32⟩
  | .hbm, ⟨4, _⟩ => ⟨S32x1024x1024, .f32⟩
  | .hbm, ⟨5, _⟩ => ⟨S32x1024x1024, .f32⟩
  | .hbm, ⟨6, _⟩ => ⟨S_, .f32⟩
  | .hbm, ⟨7, _⟩ => ⟨S32x1024x1024, .f32⟩
  | .hbm, ⟨8, _⟩ => ⟨S32x1024x1024, .f32⟩
  | .hbm, ⟨9, _⟩ => ⟨S1024, .i32⟩
  | .hbm, ⟨10, _⟩ => ⟨S1024x1024, .i32⟩
  | .hbm, ⟨11, _⟩ => ⟨S1048576, .i32⟩
  | .hbm, ⟨12, _⟩ => ⟨S1024, .i32⟩
  | .hbm, ⟨13, _⟩ => ⟨S1x1024, .i32⟩
  | .hbm, ⟨14, _⟩ => ⟨S1024x1024, .i32⟩
  | .hbm, ⟨15, _⟩ => ⟨S1048576, .i32⟩
  | .hbm, ⟨16, _⟩ => ⟨S1x1048576, .i32⟩
  | .hbm, ⟨17, _⟩ => ⟨S1x1048576, .i32⟩
  | .hbm, ⟨18, _⟩ => ⟨S2x1048576, .i32⟩
  | .hbm, ⟨19, _⟩ => ⟨S1x2x1x1048576, .i32⟩
  | .hbm, ⟨20, _⟩ => ⟨S1x2x32x1048576, .i32⟩
  | .hbm, ⟨21, _⟩ => ⟨S2x33554432, .i32⟩
  | .hbm, ⟨22, _⟩ => ⟨S33554432, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  shapeCasts_S2x1048576_S1x2x1x1048576 : S2x1048576.ShapeCasts S1x2x1x1048576
  bcast_S1x2x1x1048576_S1x2x32x1048576_0_1_2_3 : S1x2x1x1048576.BroadcastsInDim S1x2x32x1048576 (![0, 1, 2, 3] : Fin 4 → Fin S1x2x32x1048576.rank)
  shapeCasts_S1x2x32x1048576_S2x33554432 : S1x2x32x1048576.ShapeCasts S2x33554432
  shapeCasts_S32x1024x1024_S33554432 : S32x1024x1024.ShapeCasts S33554432

variable [Facts₀]

class Facts : Prop extends Facts₀ where

variable [Facts]
-- ==== Proof.SigmoidLaw.lean ====
/-
  The one law of this certificate, at the ideal instance and elementwise: the expression
  `1 / (1 + e^(-x))` spelt with four host operations (negate, exponential, add to a splat of the
  word 0x3F800000, divide that splat by the sum) is the logistic function of `x`.

  On the extended reals the logistic function is DEFINED as `div 1 (1 + exp (-x))`, with `div`'s and
  `exp`'s conventions at the infinities (`-∞ ↦ 0`, `+∞ ↦ 1`), so once the word 0x3F800000 is read
  as the extended real `1` the two sides are the same term at every element: no case split on `x`
  and no finiteness is needed.
-/
import Idealize.ShloMosaic.PureOps.Ideal
import Idealize.ShloMosaic.Lib.IdealHost

noncomputable section

namespace Cert.SigmoidLaw

open Idealize.ShloMosaic

/-- The rank-0 shape a scalar constant is printed at. -/
abbrev Scalar0 : Shape := ⟨0, ![]⟩

/-- A splat of the word 0x3F800000 reads the extended real one at every index. -/
theorem splat_one_apply {s : Shape} (h : Scalar0.BroadcastsInDim s ![]) (i : s.Idx) :
    broadcastInDim s ![] h (constant (F := Ideal) Scalar0 .f32 0x3F800000#32) i = (1 : EReal) := by
  rw [ValueIdx.broadcastInDim_scalar_apply]
  exact Ideal.ofBits_one_f32

/-- `1 / (1 + e^(-x))` in the host's four operations is the logistic function, element by element. -/
theorem host_expansion_eq_logistic {s : Shape} (h : Scalar0.BroadcastsInDim s ![]) (x : FVec Ideal s .f32) :
    Host.divf (broadcastInDim s ![] h (constant (F := Ideal) Scalar0 .f32 0x3F800000#32))
        (addf (broadcastInDim s ![] h (constant (F := Ideal) Scalar0 .f32 0x3F800000#32)) (Host.exp (Host.negf x)))
      = logistic x := by
  funext i
  show Ideal.div (broadcastInDim s ![] h (constant (F := Ideal) Scalar0 .f32 0x3F800000#32) i)
      (broadcastInDim s ![] h (constant (F := Ideal) Scalar0 .f32 0x3F800000#32) i + Ideal.exp (-(x i)))
    = Ideal.logistic (x i)
  rw [splat_one_apply]
  rfl

end Cert.SigmoidLaw

end
-- ==== Proof.KernelArray.lean ====
/-
  What the pallas_call leaves in its output array, at any float instance.

  The grid is 32 × 2: point (b, r) fetches the block of rows [512 r, 512 r + 512) of slice b of the
  input — all 1024 columns — applies the logistic function to every element of it, and writes the
  result back to the same rows of slice b of the output. The two windows have the same index map, so
  an element of the block a point writes depends only on the element of the input at the same array
  index; and the 64 blocks tile the 32 × 1024 × 1024 array (slice b, rows i / 512). Hence the output
  array ends as the logistic function of the input array, index by index.
-/
import proofs.«173638_j40029095199103_1_alg».proof.Proof.Gen.KernelIdeal.Frame
import Idealize.ShloMosaic.Lib.Pipeline.Value

set_option maxRecDepth 16384

noncomputable section

namespace Cert.KernelIdeal.Sigmoid

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The logistic function applied to every element of a 32 × 1024 × 1024 array. -/
abbrev sigmoidAll (a : S32x1024x1024.Idx → Elt F .f32) : S32x1024x1024.Idx → Elt F .f32 :=
  fun i => FloatOps.logistic (a i)

/-- The body's accesses start at the origin of the block. -/
theorem origin_zero : (![0, 0, 0] : Fin 3 → Nat) = fun _ => 0 := funext fun a => by fin_cases a <;> rfl

/-- The one stored value is the logistic function of the loaded block. -/
theorem stored_eq (x0 : Vec F S1x512x1024 .f32) : k0_pay1 x0 = logistic x0 := rfl

/-- At every grid point the input window and the output window are at the same block index on each axis. -/
theorem same_block : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3) :=
  (by decide +kernel : ∀ t : Fin grid0.N, _)

/-- Every block index (slice b, half r, column block 0) is some grid point's. -/
theorem block_onto : ∀ (b : Fin 32) (r : Fin 2), ∃ t : Fin cfg0.N, win0_1.index t = ![b.val, r.val, 0] :=
  (by decide +kernel : ∀ (b : Fin 32) (r : Fin 2), ∃ t : Fin grid0.N, win0_1.index t = ![b.val, r.val, 0])

/-- What grid point `t` writes back is block `t` of the logistic function of the input array. -/
theorem written_eq (c : Dev nD) (t : Fin cfg0.N) :
    (dats m 0 c).flushed 1 t = ((cfg0.win 1).blk t).view.read (Elt F) (sigmoidAll (V m c main_arg0)) := by
  show (cfg0.win 1).cut (grid0.coords t) ((dats m 0 c).after 1 t) = _
  rw [after0_1]
  unfold out0_1
  rw [View.canon_unit_zero origin_zero]
  simp only [View.ld_unit_zero (S := S1x512x1024) origin_zero]
  rw [stored_eq]
  obtain ⟨e0, e1, e2⟩ := same_block t
  funext j
  show FloatOps.logistic (V m c main_arg0 (((cfg0.win 0).blk t).view.emb j))
    = FloatOps.logistic (V m c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 512 + 1 * (j 1).val = win0_1.index t (1 : Fin 3) * 512 + 1 * (j 1).val; omega
    | ⟨2, _⟩ => show win0_0.index t (2 : Fin 3) * 1024 + 1 * (j 2).val = win0_1.index t (2 : Fin 3) * 1024 + 1 * (j 2).val; omega
  rw [h0]

/-- An index of the output array is in point `t`'s block iff each coordinate is in the block's range on its axis. -/
theorem mem_block (t : Fin cfg0.N) (i : S32x1024x1024.Idx) :
    i ∈ ((cfg0.win 1).blk t).view.set ↔ ∀ a : Fin 3, win0_1.index t a * S1x512x1024.size a ≤ (i a).val
      ∧ (i a).val < win0_1.index t a * S1x512x1024.size a + S1x512x1024.size a := by
  show i ∈ ((View.whole main_v0).slice (win0_1.rect t)).set ↔ _
  rw [View.set_slice_whole, Rect.mem_set_unit]
  exact Iff.rfl

/-- The blocks tile the array: index (b, i, k) is in the block of the point at slice b, half i / 512. -/
theorem tiled (i : S32x1024x1024.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 1024 := (i 2).isLt
  obtain ⟨t, ht⟩ := block_onto ⟨(i 0).val, hi0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 1024 ≤ (i 2).val ∧ (i 2).val < win0_1.index t (2 : Fin 3) * 1024 + 1024; omega

/-- The output array after the region: the logistic function of the input array as launched. -/
theorem output_array (c : Dev nD) :
    (dats m 0 c).arrAt 1 cfg0.N = sigmoidAll (m ((c : Thread nD τ).loc main_arg0)) :=
  (dats m 0 c).arrAt_eq_of_cover 1 (sigmoidAll (V m c main_arg0)) (fun t _ => written_eq m c t) tiled

end Cert.KernelIdeal.Sigmoid

end
-- ==== Proof.KernelResults.lean ====
/-
  The two results of the kernel's program, at any float instance.

  After the pallas_call @main runs fourteen host operations. Thirteen of them build the edge-index
  table out of two iotas by broadcasts, reshapes and one concatenation: none reads an array the
  pallas_call wrote, so that result is one closed term with no argument in it. The last reshapes the
  pallas_call's output array, 32 × 1024 × 1024, to a vector of 33554432 elements: the edge
  attributes are the flattened logistic function of the input.
-/
import proofs.«173638_j40029095199103_1_alg».proof.Proof.KernelArray
import Idealize.ShloMosaic.Lib.StableHlo.Run

set_option maxRecDepth 16384

noncomputable section

namespace Cert.KernelIdeal.Sigmoid

open Idealize.ShloMosaic Idealize.ShloMosaic.TcCoe Idealize.SL.Sem Idealize.ShloMosaic.StableHlo
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The edge-index table: row 0 repeats each of 0 … 1023 a thousand and twenty-four times, row 1 cycles
    through 0 … 1023, and both rows are tiled 32 times along the second axis. -/
abbrev edgeIndex : (⟨S2x33554432, .i32⟩ : BufTy).Contents (Elt F) :=
  shapeCast _ (broadcastInDim S1x2x32x1048576 ![0, 1, 2, 3] bcast_S1x2x1x1048576_S1x2x32x1048576_0_1_2_3
    (shapeCast _ (concatenate S2x1048576 0
      [⟨S1x1048576, (broadcastInDim S1x1048576 ![1] bcast_S1048576_S1x1048576_1
          (shapeCast _ (broadcastInDim S1024x1024 ![0] bcast_S1024_S1024x1024_0 (iotaInDim S1024 32 0)) shapeCasts_S1024x1024_S1048576))⟩,
       ⟨S1x1048576, (broadcastInDim S1x1048576 ![1] bcast_S1048576_S1x1048576_1
          (shapeCast _ (broadcastInDim S1024x1024 ![0, 1] bcast_S1x1024_S1024x1024_0_1
            (shapeCast _ (iotaInDim S1024 32 0) shapeCasts_S1024_S1x1024)) shapeCasts_S1024x1024_S1048576))⟩]
      concatenates_S1x1048576_S1x1048576_S2x1048576_d0) shapeCasts_S2x1048576_S1x2x1x1048576))
    shapeCasts_S1x2x32x1048576_S2x33554432

/-- The edge attributes: the logistic function of the input, flattened. -/
abbrev edgeAttr (a : S32x1024x1024.Idx → Elt F .f32) : (⟨S33554432, .f32⟩ : BufTy).Contents (Elt F) :=
  shapeCast _ (sigmoidAll a) shapeCasts_S32x1024x1024_S33554432

/-- The first result after the host operations that follow the pallas_call. -/
theorem edge_index_after (c : Dev nD) :
    Pipeline.afterTail₀ cfgs (dats m) 0 (V0 m) [hostOps1] c main_v13 = edgeIndex (F := F) := by
  unfold Pipeline.afterTail₀
  show StableHlo.after hostOps1 _ (Proc.devRef .tc main_v13) = _
  after_results
  rfl

/-- The second result after them: the reshape of the pallas_call's output array. -/
theorem edge_attr_after (c : Dev nD) :
    Pipeline.afterTail₀ cfgs (dats m) 0 (V0 m) [hostOps1] c main_v14
      = edgeAttr (m ((c : Thread nD τ).loc main_arg0)) := by
  unfold Pipeline.afterTail₀
  show StableHlo.after hostOps1 _ (Proc.devRef .tc main_v14) = _
  after_results
  have h : Pipeline.withArrays (cfgs 0).spec c (V0 m c) (fun w => (dats m 0 c).arrAt w (cfgs 0).N) (Proc.devRef .tc main_v0)
      = sigmoidAll (m ((c : Thread nD τ).loc main_arg0)) :=
    (Pipeline.withArrays_arr spec0 launch0.win.arr_inj c _ _ 1).trans (output_array m c)
  rw [h]
  rfl

/-- The two results are unscoped buffers that are no array of the pallas_call. -/
theorem main_v13_rest : main_v13 ∈ Pipeline.restRefs sig (cfgs 0).spec :=
  Pipeline.mem_restRefs_of main_v13 rfl (by decide)
theorem main_v14_rest : main_v14 ∈ Pipeline.restRefs sig (cfgs 0).spec :=
  Pipeline.mem_restRefs_of main_v14 rfl (by decide)

/-- Every weakly fair execution of the kernel's program terminates with the edge-index table in its
    first result, the flattened logistic function of the input in its second, and the input unchanged. -/
theorem run : θ_run defs (onTc (τ := τ) (main (F := F))) ⟨m, fun _ => 0, ρ⟩ fun r => ∀ c : Dev nD,
      r.2.mem ((c.tc : Thread nD τ).loc main_v13) = edgeIndex (F := F)
      ∧ r.2.mem ((c.tc : Thread nD τ).loc main_v14) = edgeAttr (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v13 main_v13_rest).trans (edge_index_after m c),
       ((h c).2 main_v14 main_v14_rest).trans (edge_attr_after m c),
       ((h c).1 0).trans (((dats m 0 c).arrAt_in 0 rfl _).trans ((A_eq m c 0).trans (V_main_arg0 m c)))⟩)
    (run_main m ρ)

end Cert.KernelIdeal.Sigmoid

end
-- ==== Proof.lean ====
/-
  Kernel against reference: an edge list of 32 dense 1024 × 1024 adjacency matrices.

  Both programs return (edge_index, edge_attr). edge_attr is sigmoid(V) flattened; edge_index is the
  table of (row, column) pairs in row-major order, tiled over the 32 samples, and does not depend on
  the input.

  * The kernel computes sigmoid(V) in one pallas_call over a 32 × 2 grid — each point applies the
    logistic function to a 512-row block — and the blocks tile the array, so its output array is the
    logistic function of V index by index (Proof/KernelArray.lean); the host operations after the call
    build the index table and flatten that array (Proof/KernelResults.lean).
  * The reference computes sigmoid(V) on the host as 1 / (1 + exp(-V)) in four operations, builds the
    same index table by the same operations, and flattens.
  * On the extended reals the logistic function IS `1 / (1 + e^(-x))` with the conventions at the
    infinities, so the two arrays agree at every element, finite or not (Proof/SigmoidLaw.lean); the
    index tables are the same closed term. The precondition is never opened.

  The ideal pass rewrote nothing in the kernel, so the kernel's idealization is its own text and the
  `preserves` conjunct is `True`.
-/
import proofs.«173638_j40029095199103_1_alg».proof.Defs
import proofs.«173638_j40029095199103_1_alg».proof.Proof.Gen.Kernel
import proofs.«173638_j40029095199103_1_alg».proof.Proof.Gen.Kernel.Skeleton
import proofs.«173638_j40029095199103_1_alg».proof.Proof.Gen.Kernel.Launch
import proofs.«173638_j40029095199103_1_alg».proof.Proof.Gen.Kernel.Points
import proofs.«173638_j40029095199103_1_alg».proof.Proof.Gen.Kernel.Frame
import proofs.«173638_j40029095199103_1_alg».proof.Proof.Gen.KernelIdeal
import proofs.«173638_j40029095199103_1_alg».proof.Proof.Gen.KernelIdeal.Skeleton
import proofs.«173638_j40029095199103_1_alg».proof.Proof.Gen.KernelIdeal.Launch
import proofs.«173638_j40029095199103_1_alg».proof.Proof.Gen.KernelIdeal.Points
import proofs.«173638_j40029095199103_1_alg».proof.Proof.Gen.KernelIdeal.Frame
import proofs.«173638_j40029095199103_1_alg».proof.Proof.Gen.ReferenceIdeal
import proofs.«173638_j40029095199103_1_alg».proof.Proof.Gen.ReferenceIdeal.Run
import proofs.«173638_j40029095199103_1_alg».proof.Proof.Gen.Pre_finite_inputs
import proofs.«173638_j40029095199103_1_alg».proof.Proof.SigmoidLaw
import proofs.«173638_j40029095199103_1_alg».proof.Proof.KernelResults
import Idealize.ShloMosaic.Adequacy
import Idealize.ShloMosaic.Init

noncomputable section

namespace Cert.Proof

open Idealize.ShloMosaic Idealize.ShloMosaic.TcCoe Idealize.SL.Sem

/-- The kernel's program as printed terminates without a fault and leaves its input unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass applied no rewrite. -/
theorem preserves : Cert.preserves_Kernel_KernelIdeal := trivial

/-- From inputs that agree, both programs end with the same index table and, element by element,
    the same attributes: the kernel's logistic function of each input element is the reference's
    `1 / (1 + e^(-x))` of it. -/
theorem algebraic : Cert.algebraic_KernelIdeal_ReferenceIdeal := by
  intro m ρ m' ρ' _ hagree
  refine ⟨fun _ => Cert.KernelIdeal.Sigmoid.edgeIndex (F := Ideal),
    fun c => Cert.KernelIdeal.Sigmoid.edgeAttr (F := Ideal)
      (m ((c.tc : Thread Cert.KernelIdeal.nD Cert.KernelIdeal.τ).loc Cert.KernelIdeal.main_arg0)),
    Cert.KernelIdeal.Sigmoid.run (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rfl
  · rw [hagree c]
    exact congrArg (fun a => shapeCast _ a Cert.ReferenceIdeal.Gen.shapeCasts_S32x1024x1024_S33554432)
      (Cert.SigmoidLaw.host_expansion_eq_logistic _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
